-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S131072x128 : Shape := ⟨2, ![131072, 128]⟩
abbrev S1x1 : Shape := ⟨2, ![1, 1]⟩
abbrev S8192x128 : Shape := ⟨2, ![8192, 128]⟩
abbrev S1x8192x128 : Shape := ⟨3, ![1, 8192, 128]⟩
abbrev S1 : Shape := ⟨1, ![1]⟩
abbrev S1x1x1 : Shape := ⟨3, ![1, 1, 1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S131072x128, .f32⟩
  | .hbm, ⟨3, _⟩ => ⟨S131072x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S1x1, .f32⟩
  | .local _ .vmem, ⟨5, _⟩ => ⟨S1x1, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v19 : BitVec 1 := Scalar.cmpi .eq arg0 c15_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S16777216_S131072x128 : S16777216.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S8192x128_S1x8192x128 : S8192x128.ShapeCasts S1x8192x128
  reduces_S1x8192x128_S1 : S1x8192x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel

variable [Facts₀]

class Facts : Prop extends Facts₀ where

variable [Facts]
-- ==== Proof.AccPieces.lean ====
/-
  What the kernel's carried accumulator holds, piece by piece.

  The body at a grid point multiplies the point's two 8192 × 128 blocks entrywise, takes the cosine, sums all
  entries of the block into one number and adds it to the 1 × 1 accumulator; the first point first resets the
  accumulator to zero, and the last point copies the accumulator to the 1 × 1 output block.  This module reads the
  stores each of the three control cases leaves as values: in every case the accumulator ends at
  `step x y acc` (the body's one arithmetic term) of the point's blocks and of what the accumulator held before
  (the zero block at the first point), and at the last point the output block holds the same value.
-/
import proofs.«118882_j26688926777599_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The accumulator's reset value: the 1 × 1 block of `+0.0`. -/
abbrev zeroAcc : Vec F S1x1 .f32 := k0_pay1 (F := F)

/-- One accumulation step: the accumulator plus the sum of `cos (x · y)` over the whole block. -/
abbrev step (x y : Vec F S8192x128 .f32) (acc : Vec F S1x1 .f32) : Vec F S1x1 .f32 := k0_pay2 x y acc

/-- First point: the accumulator is reset, read back, and one step is added to the zero block. -/
theorem acc_first (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x y : Vec F S8192x128 .f32) :
    sout0_A_0 c i a1 h1 a2 h2 a3 h3 a4 h4 hc0 hc1 x y = step x y zeroAcc := by
  unfold sout0_A_0
  rw [View.read_writes_eq_canon _ _ _ (scover0_A_0 c i a1 h1 a2 h2 a3 h3 a4 h4 hc0 hc1 x y)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S8192x128) hz]

/-- A middle point: one step is added to what the accumulator held. -/
theorem acc_middle (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x y : Vec F S8192x128 .f32) (acc : Vec F S1x1 .f32) :
    sout0_B_0 c i a1 h1 a2 h2 a3 h3 a4 h4 hc0 hc1 x y acc = step x y acc := by
  unfold sout0_B_0
  rw [View.read_writes_eq_canon _ _ _ (scover0_B_0 c i a1 h1 a2 h2 a3 h3 a4 h4 hc0 hc1 x y acc)]
  unfold kernelRun0_B
  dsimp only
  sl_unfold_words
  rw [View.canon_unit_zero (S := S1x1) hz]
  simp only [View.readAt_eq_ld, h1.read_unread, h2.read_unread, h4.read_unread, View.ld_unit_zero (S := S8192x128) hz,
    View.ld_unit_zero (S := S1x1) hz]

/-- The last point: one step is added to what the accumulator held … -/
theorem acc_last (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x y : Vec F S8192x128 .f32) (acc : Vec F S1x1 .f32) :
    sout0_C_0 c i a1 h1 a2 h2 a3 h3 a4 h4 hc0 hc1 x y acc = step x y acc := by
  unfold sout0_C_0
  rw [View.read_writes_eq_canon _ _ _ (scover0_C_0 c i a1 h1 a2 h2 a3 h3 a4 h4 hc0 hc1 x y acc)]
  unfold kernelRun0_C
  dsimp only
  sl_unfold_words
  rw [View.canon_unit_zero (S := S1x1) hz]
  simp only [View.readAt_eq_ld, h1.read_unread, h2.read_unread, h4.read_unread, View.ld_unit_zero (S := S8192x128) hz,
    View.ld_unit_zero (S := S1x1) hz]

/-- … and the output block receives the accumulator read back after that step. -/
theorem out_last (c : Dev nD) (i : grid0.Coords) (a1 : Memref sig .tc .vmem S8192x128 .f32) (h1 : a1.IsWhole)
    (a2 : Memref sig .tc .vmem S8192x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x y : Vec F S8192x128 .f32) (acc : Vec F S1x1 .f32) :
    out0_C_2 c i a1 h1 a2 h2 a3 h3 a4 h4 hc0 hc1 x y acc = step x y acc := by
  unfold out0_C_2
  rw [View.read_writes_eq_canon _ _ _ (cover0_C_2 c i a1 h1 a2 h2 a3 h3 a4 h4 hc0 hc1 x y acc)]
  unfold kernelRun0_C
  dsimp only
  sl_unfold_words
  rw [View.canon_unit_zero (S := S1x1) hz]
  simp only [View.readAt_eq_ld, h1.read_unread, h2.read_unread, h4.read_unread, View.ld_unit_zero (S := S8192x128) hz,
    View.ld_unit_zero (S := S1x1) hz, View.readCov_unit_zero (S := S1x1) _ hz]

end Cert.KernelIdeal.Acc

end
-- ==== Proof.AccRun.lean ====
/-
  The kernel's run, read as a value (at any float instance).

  After grid point `n` the carried accumulator holds the `n + 1`-fold iterate of the body's step over the
  points' blocks, started from the zero block (`accAt`; by induction on the point, each control case read by the
  piece lemmas).  The 1 × 1 output array is written back once, after the last point, with the accumulator's final
  value; its one block is the whole array.  The host lines after the call reshape that 1 × 1 array to a scalar, add
  the constant `+0.0` and divide by the constant `2^24` (`tail`).
-/
import proofs.«118882_j26688926777599_1_alg».proof.Proof.AccPieces

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ) (ρ : Dev nD → PrngReg)

/-- The two input blocks of point `t`: rows `8192·t … 8192·t + 8191` of the two reshaped arguments. -/
abbrev xblk (c : Dev nD) (t : Fin cfg0.N) : Vec F S8192x128 .f32 := iblk m c 0 t
abbrev yblk (c : Dev nD) (t : Fin cfg0.N) : Vec F S8192x128 .f32 := iblk m c 1 t

/-- The accumulator after point `n`: the step of point `n` applied to the accumulator after point `n - 1`,
    the zero block before the first point. -/
def accAt (c : Dev nD) : (n : ℕ) → n < cfg0.N → Vec F S1x1 .f32
  | 0, h => step (xblk m c ⟨0, h⟩) (yblk m c ⟨0, h⟩) zeroAcc
  | n + 1, h => step (xblk m c ⟨n + 1, h⟩) (yblk m c ⟨n + 1, h⟩) (accAt c n (Nat.lt_of_succ_lt h))

/-- The carried scratch after each point is `accAt`: induction on the point; the first point is the resetting
    case, the last point and the middle points add one step to what the point before left. -/
theorem scratch_eq (c : Dev nD) : ∀ (n : ℕ) (h : n < cfg0.N), (outsAt0 m c n h).2 = accAt m c n h
  | 0, h => by
    show (outsAt0 m c (⟨0, h⟩ : Fin cfg0.N).val (⟨0, h⟩ : Fin cfg0.N).isLt).2 = _
    rw [outsAt0_A m c ⟨0, h⟩ rfl (by show ¬(0 % 16 = 15); decide)]
    dsimp only
    exact acc_first c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) scM0_0 (Memref.isWhole_whole _) _ _ (iblk m c 0 ⟨0, h⟩) (iblk m c 1 ⟨0, h⟩)
  | n + 1, h => by
    have hN : cfg0.N = 16 := N_0
    have h0 : ¬(⟨n + 1, h⟩ : Fin cfg0.N).val % 16 = 0 := by dsimp only; omega
    show (outsAt0 m c (⟨n + 1, h⟩ : Fin cfg0.N).val (⟨n + 1, h⟩ : Fin cfg0.N).isLt).2 = _
    by_cases h1 : (⟨n + 1, h⟩ : Fin cfg0.N).val % 16 = 15
    · rw [outsAt0_C m c ⟨n + 1, h⟩ h0 h1]
      dsimp only
      refine (acc_last c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      show step _ _ (outsAt0 m c n _).2 = step _ _ (accAt m c n _)
      rw [scratch_eq c n]
    · rw [outsAt0_B m c ⟨n + 1, h⟩ h0 h1]
      dsimp only
      refine (acc_middle c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) scM0_0 (Memref.isWhole_whole _) _ _ (iblk m c 0 ⟨n + 1, h⟩) (iblk m c 1 ⟨n + 1, h⟩)
        (outsAt0 m c n (Nat.lt_of_succ_lt h)).2).trans ?_
      show step _ _ (outsAt0 m c n _).2 = step _ _ (accAt m c n _)
      rw [scratch_eq c n]

theorem lastLt : 15 < cfg0.N := by rw [show cfg0.N = 16 from N_0]; decide

/-- The value the kernel leaves in its 1 × 1 result array: the accumulator after the last point. -/
abbrev result (c : Dev nD) : Buf (Elt F) ((c : Thread nD τ).loc main_v2) := accAt m c 15 lastLt

/-- At the last point the output block receives the accumulator's final value. -/
theorem out_eq (c : Dev nD) : (outsAt0 m c t0_15.val t0_15.isLt).1 = result m c := by
  rw [outsAt0_C m c t0_15 (by decide) (by decide)]
  dsimp only
  refine (out_last c (grid0.coords t0_15) (ms0_0 t0_15) (hs0_0 t0_15) (ms0_1 t0_15) (hs0_1 t0_15)
    (ms0_2 t0_15) (hs0_2 t0_15) scM0_0 (Memref.isWhole_whole _) _ _ (iblk m c 0 t0_15) (iblk m c 1 t0_15)
    (outsAt0 m c 14 (Nat.lt_of_succ_lt lastLt)).2).trans ?_
  show step _ _ (outsAt0 m c 14 _).2 = step _ _ (accAt m c 14 _)
  rw [scratch_eq m c 14]
  rfl

/-- The one write-back, after point 15, writes that value: block (0, 0) of a 1 × 1 array is the array. -/
theorem flushed_eq (c : Dev nD) (t : Fin cfg0.N) (hf : (cfg0.win 2).flush t = true) :
    (dats m 0 c).flushed 2 t = ((cfg0.win 2).blk t).view.read (Elt F) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, out_eq]
  have hz' : (fun a => win0_2.index t0_15 a * main_v2.ty.shape.size a) = fun _ => 0 := funext fun a => by fin_cases a <;> decide
  exact (Memref.read_access_unit_zero (Elt F) main_v2 hz' (fun a => by rw [congrFun hz' a]; simp) (result m c)).symm

/-- So the result array ends holding it: the last point's block covers the array's one entry. -/
theorem final_o (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v2).slice (win0_2.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 1 from by decide +kernel]; omega⟩

/-- The host lines after the call, on the scalar they receive: add `+0.0`, divide by `2^24`. -/
def tail (s : (⟨S_, .f32⟩ : BufTy).Contents (Elt F)) : (⟨S_, .f32⟩ : BufTy).Contents (Elt F) :=
  Host.divf (addf s (constant (F := F) S_ .f32 0x00000000#32)) (constant (F := F) S_ .f32 0x4B800000#32)

/-- The program's result buffer after the run: the tail of the result array's one entry. -/
theorem tail_eq (c : Dev nD) :
    Pipeline.afterTail₀ cfgs (dats m) 0 (V0 m) [hostOps1] c main_v5
      = tail (shapeCast S_ (result m c) shapeCasts_S1x1_S_) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v2)
      = result m c := (Pipeline.withArrays_arr spec0 launch0.win.arr_inj c _ _ 2).trans (final_o m c)
  unfold tail
  rw [e]
  rfl

/-- The run, read: the program's result is the tail of the accumulator's final value, the arguments unchanged. -/
theorem run : θ_run defs (onTc (τ := τ) (main (F := F))) ⟨m, fun _ => 0, ρ⟩ fun r => ∀ c : Dev nD,
      r.2.mem ((c.tc : Thread nD τ).loc main_v5) = tail (shapeCast S_ (result m c) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Acc

end
-- ==== Proof.AccBlocks.lean ====
/-
  The kernel's input blocks as entries of the arguments (at any float instance): the call's two operands are the two
  arguments reshaped to 131072 × 128, and entry (r, l) of point t's block is entry (8192·t + r, l) of its operand.
-/
import proofs.«118882_j26688926777599_1_alg».proof.Proof.AccRun
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Acc

open Cert.KernelIdeal Cert.KernelIdeal.Gen

/-! ## The blocks, as entries of the reshaped arguments (any instance) -/

section Blocks

variable {F : FTy → Type} [FloatOps F]
variable (m : (ℓ : Loc nD τ sig) → Buf (Elt F) ℓ)

/-- The call's first operand is the first argument reshaped to 131072 × 128 … -/
theorem V_v0 (c : Dev nD) : (V m c main_v0 : S131072x128.Idx → Elt F .f32)
    = shapeCast S131072x128 (m ((c : Thread nD τ).loc main_arg0)) shapeCasts_S16777216_S131072x128 := by
  show StableHlo.after hostOps0 (fun b => m (c, b)) (Proc.devRef .tc main_v0) = _
  after_results
  rfl

/-- … and its second operand the second argument reshaped likewise. -/
theorem V_v1 (c : Dev nD) : (V m c main_v1 : S131072x128.Idx → Elt F .f32)
    = shapeCast S131072x128 (m ((c : Thread nD τ).loc main_arg1)) shapeCasts_S16777216_S131072x128 := by
  show StableHlo.after hostOps0 (fun b => m (c, b)) (Proc.devRef .tc main_v1) = _
  after_results
  rfl

theorem row_lt (t : Fin cfg0.N) (j : S8192x128.Idx) : 8192 * t.val + (j 0).val < 131072 := by
  have ht : t.val < 16 := lt_of_lt_of_eq t.isLt (show cfg0.N = 16 from N_0)
  have hj : (j 0 : ℕ) < 8192 := (j 0).isLt
  omega

/-- Entry `(r, l)` of point `t`'s first block is entry `(8192·t + r, l)` of the first operand; -/
theorem xblk_apply (c : Dev nD) (t : Fin cfg0.N) (j : S8192x128.Idx) :
    xblk m c t j = (V m c main_v0 : S131072x128.Idx → Elt F .f32) (ix2 ⟨8192 * t.val + (j 0).val, row_lt t j⟩ (j 1)) := by
  have hi : win0_0.index t 0 = t.val ∧ win0_0.index t 1 = 0 :=
    (by decide +kernel : ∀ t : Fin grid0.N, win0_0.index t 0 = t.val ∧ win0_0.index t 1 = 0) t
  show iblk m c 0 t j = _
  unfold iblk
  rw [View.read_apply]
  show V m c main_v0 _ = V m c main_v0 _
  congr 1
  funext a
  apply Fin.ext
  match a with
  | ⟨0, _⟩ => show win0_0.index t 0 * 8192 + 1 * (j 0).val = 8192 * t.val + (j 0).val; rw [hi.1]; omega
  | ⟨1, _⟩ => show win0_0.index t 1 * 128 + 1 * (j 1).val = (j 1).val; rw [hi.2]; omega

/-- and the same for the second block and the second operand. -/
theorem yblk_apply (c : Dev nD) (t : Fin cfg0.N) (j : S8192x128.Idx) :
    yblk m c t j = (V m c main_v1 : S131072x128.Idx → Elt F .f32) (ix2 ⟨8192 * t.val + (j 0).val, row_lt t j⟩ (j 1)) := by
  have hi : win0_1.index t 0 = t.val ∧ win0_1.index t 1 = 0 :=
    (by decide +kernel : ∀ t : Fin grid0.N, win0_1.index t 0 = t.val ∧ win0_1.index t 1 = 0) t
  show iblk m c 1 t j = _
  unfold iblk
  rw [View.read_apply]
  show V m c main_v1 _ = V m c main_v1 _
  congr 1
  funext a
  apply Fin.ext
  match a with
  | ⟨0, _⟩ => show win0_1.index t 0 * 8192 + 1 * (j 0).val = 8192 * t.val + (j 0).val; rw [hi.1]; omega
  | ⟨1, _⟩ => show win0_1.index t 1 * 128 + 1 * (j 1).val = (j 1).val; rw [hi.2]; omega

end Blocks

end Cert.KernelIdeal.Acc

end
-- ==== Proof.LibSumBands.lean ====
/-
  Summation algebra used by the value proof, over an arbitrary commutative additive monoid (the extended reals
  in the application): a sum over a reshaped array is the sum over the array; a sum over the rows of an
  (A·B) × C array splits into A consecutive bands of B rows; and a left-nested running sum over the points
  0, 1, …, n of a finite range is the sum over those points.
-/
import Idealize.ShloMosaic.Lib.ValueIdx
import Idealize.ShloMosaic.Lib.Pipeline.Value

open Idealize.ShloMosaic Idealize.ShloMosaic.ValueIdx

namespace Cert.SumBlocks

variable {M : Type} [AddCommMonoid M]

/-- A reshape only re-indexes (same row-major position), so the total over the reshaped array is the total
    over the array. -/
theorem sum_shapeCast {s t : Shape} (x : s.Idx → M) (h : s.ShapeCasts t) :
    ∑ j : t.Idx, shapeCast t x h j = ∑ k : s.Idx, x k := by
  unfold shapeCast
  exact Equiv.sum_comp (Shape.reshapeEquiv h) x

/-- Row `B·t + r` of an array with `A·B` rows, for `t < A` and `r < B`. -/
theorem band_row_lt {A B t r : ℕ} (ht : t < A) (hr : r < B) : B * t + r < A * B :=
  calc B * t + r < B * t + B := Nat.add_lt_add_left hr _
    _ = B * (t + 1) := (Nat.mul_succ B t).symm
    _ ≤ B * A := Nat.mul_le_mul_left B ht
    _ = A * B := Nat.mul_comm B A

/-- The total over an `N × C` array with `N = A·B` rows is the sum, over the `A` bands of `B` consecutive
    rows, of each band's total: row `p` is row `r` of band `t` exactly when `p = B·t + r`. -/
theorem sum_row_bands {N C : ℕ} (A B : ℕ) (hN : N = A * B) (g : (⟨2, ![N, C]⟩ : Shape).Idx → M) :
    ∑ i, g i = ∑ t : Fin A, ∑ j : (⟨2, ![B, C]⟩ : Shape).Idx,
      g (ix2 ⟨B * t.val + (j 0).val, hN ▸ band_row_lt t.isLt (j 0).isLt⟩ (j 1)) := by
  subst hN
  rw [sum_idx2, ← Equiv.sum_comp finProdFinEquiv, Fintype.sum_prod_type]
  refine Finset.sum_congr rfl fun t _ => ?_
  rw [sum_idx2]
  refine Finset.sum_congr rfl fun r _ => Finset.sum_congr rfl fun l _ => ?_
  refine congrArg g ?_
  refine congrArg (fun p => ix2 p l) (Fin.ext ?_)
  show (finProdFinEquiv (t, r)).val = B * t.val + r.val
  simp only [finProdFinEquiv_apply_val]
  exact Nat.add_comm _ _

/-- The left-nested running sum `(…((z + b 0) + b 1) + …) + b n` over the first points of a finite range. -/
def running {N : ℕ} (z : M) (b : Fin N → M) : (n : ℕ) → n < N → M
  | 0, h => z + b ⟨0, h⟩
  | n + 1, h => running z b n (Nat.lt_of_succ_lt h) + b ⟨n + 1, h⟩

/-- The running sum after point `n` is the start value plus the sum over the points up to `n`. -/
theorem running_eq {N : ℕ} (z : M) (b : Fin N → M) : ∀ (n : ℕ) (h : n < N),
    running z b n h = z + ∑ t ∈ Finset.univ.filter (fun t : Fin N => t.val ≤ n), b t
  | 0, h => by
    have e : Finset.univ.filter (fun t : Fin N => t.val ≤ 0) = {⟨0, h⟩} := by
      ext t; simp only [Finset.mem_filter, Finset.mem_univ, true_and, Finset.mem_singleton, Nat.le_zero]
      exact ⟨fun ht => Fin.ext ht, fun ht => by rw [ht]⟩
    rw [running, e, Finset.sum_singleton]
  | n + 1, h => by
    have e : Finset.univ.filter (fun t : Fin N => t.val ≤ n + 1)
        = insert ⟨n + 1, h⟩ (Finset.univ.filter (fun t : Fin N => t.val ≤ n)) := by
      ext t; simp only [Finset.mem_filter, Finset.mem_univ, true_and, Finset.mem_insert]
      constructor
      · intro ht
        rcases Nat.lt_or_ge n t.val with h1 | h1
        · exact Or.inl (Fin.ext (by dsimp only; omega))
        · exact Or.inr h1
      · rintro (rfl | ht)
        · exact Nat.le_refl _
        · exact Nat.le_succ_of_le ht
    have hni : (⟨n + 1, h⟩ : Fin N) ∉ Finset.univ.filter (fun t : Fin N => t.val ≤ n) := by
      simp only [Finset.mem_filter, Finset.mem_univ, true_and]; exact Nat.not_succ_le_self n
    rw [running, running_eq z b n, e, Finset.sum_insert hni, add_assoc,
      add_comm (b ⟨n + 1, h⟩)]

/-- After the last point the running sum is the start value plus the sum over every point. -/
theorem running_last {N : ℕ} (z : M) (b : Fin N → M) (n : ℕ) (h : n < N) (hl : n + 1 = N) :
    running z b n h = z + ∑ t : Fin N, b t := by
  rw [running_eq]
  congr 2
  exact Finset.filter_true_of_mem fun t _ => by have := t.isLt; omega

end Cert.SumBlocks
-- ==== Proof.AccStep.lean ====
/-
  One accumulation step over the extended reals: the lane reduction into a single entry is the total over the block
  (the reshapes around it only re-index), so a step adds the block's total of cos (x · y) to the accumulator.
-/
import proofs.«118882_j26688926777599_1_alg».proof.Proof.AccRun
import proofs.«118882_j26688926777599_1_alg».proof.Proof.LibSumBands
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen

/-! ## One step, over the extended reals -/

/-- The reset value is the zero block. -/
theorem zeroAcc_apply (i : S1x1.Idx) : (zeroAcc (F := Ideal)) i = 0 := by
  show shapeCast S1x1 (broadcast S1x1 (Scalar.ofBits (F := Ideal) .f32 0x00000000#32)) shapeCasts_S1x1_S1x1 i = 0
  rw [shapeCast_self]
  exact Ideal.ofBits_zero_f32

/-- Reading one entry of a reshaped vector reads the entry of the vector at the same row-major position. -/
theorem extractAt_shapeCast {s t : Shape} {α : Type} (R : s.Idx → α) (h : s.ShapeCasts t) (pos : Fin t.rank → Nat)
    (hp : ∀ a, pos a < t.size a) :
    extractAt pos (shapeCast t R h) hp = R (Shape.reshapeEquiv h fun a => ⟨pos a, hp a⟩) := rfl

/-- The lane reduction of a block (viewed as 1 × 8192 × 128) over its two long axes, reshaped and read at its one
    entry, is the total over the block. -/
theorem extract_reduce_total (v : FVec Ideal S8192x128 .f32) (h1 : S8192x128.ShapeCasts S1x8192x128)
    (h2 : S1x8192x128.Reduces [1, 2] S1) (hφ : FKind.Formats .f32)
    (hacc : (0x00000000#32 : BitVec 32) = 0x00000000#32)
    (h3 : S1.ShapeCasts S1x1x1) (h4 : ∀ a, (![0, 0, 0] : Fin 3 → Nat) a < S1x1x1.size a) :
    extractAt ![0, 0, 0] (shapeCast S1x1x1 (multiReduction .add [1, 2] S1 (shapeCast S1x8192x128 v h1) 0x00000000#32 h2 hφ hacc) h3) h4
      = ∑ j : S8192x128.Idx, v j :=
  (extractAt_shapeCast (multiReduction .add [1, 2] S1 (shapeCast S1x8192x128 v h1) 0x00000000#32 h2 hφ hacc) h3 ![0, 0, 0] h4).trans
    ((Ideal.multiReduction_add_total (shapeCast S1x8192x128 v h1) 0x00000000#32 h2 (fun b => by fin_cases b; rfl) hφ hacc
        (Shape.reshapeEquiv h3 fun a => ⟨(![0, 0, 0] : Fin 3 → Nat) a, h4 a⟩)).trans
      (Cert.SumBlocks.sum_shapeCast v h1))

/-- One step adds the block's total of `cos (x · y)` to the accumulator's entry. -/
theorem step_apply (x y : FVec Ideal S8192x128 .f32) (acc : FVec Ideal S1x1 .f32) (i : S1x1.Idx) :
    step (F := Ideal) x y acc i = acc i + ∑ j : S8192x128.Idx, Ideal.cos (x j * y j) := by
  show k0_pay2 (F := Ideal) x y acc i = _
  unfold k0_pay2
  dsimp only
  rw [shapeCast_self, shapeCast_self, shapeCast_self]
  rw [addf_apply, broadcast_apply]
  rw [extract_reduce_total (cos (mulf x y))]
  rfl

end Cert.KernelIdeal.Acc

end
-- ==== Proof.AccTotal.lean ====
/-
  The accumulator after the last point, over the extended reals: 0 plus, over the 16 points, the total over each
  point's block; the 16 blocks are the 16 bands of 8192 consecutive rows of the reshaped arguments, so this is the
  sum over every entry of the reshaped arguments, which is the sum over every entry of the arguments themselves.
-/
import proofs.«118882_j26688926777599_1_alg».proof.Proof.AccBlocks
import proofs.«118882_j26688926777599_1_alg».proof.Proof.AccStep

noncomputable section

open Idealize.ShloMosaic Idealize.ShloMosaic.TcCoe Idealize.SL.Sem Idealize.ShloMosaic.ValueIdx

namespace Cert.KernelIdeal.Acc

open Cert.KernelIdeal Cert.KernelIdeal.Gen

/-! ## The accumulator after the last point -/

variable (m : (ℓ : Loc nD τ sig) → Buf (Elt Ideal) ℓ)

/-- The two argument arrays, as vectors of extended reals. -/
abbrev argA (c : Dev nD) : FVec Ideal S16777216 .f32 := m ((c : Thread nD τ).loc main_arg0)
abbrev argB (c : Dev nD) : FVec Ideal S16777216 .f32 := m ((c : Thread nD τ).loc main_arg1)

/-- The summand at entry `k` of the arguments: `cos (a k · b k)`. -/
def term (c : Dev nD) (k : S16777216.Idx) : EReal := Ideal.cos (argA m c k * argB m c k)

/-- Point `t`'s contribution: the total of `cos (x · y)` over its two blocks. -/
def blockTotal (c : Dev nD) (t : Fin cfg0.N) : EReal :=
  ∑ j : S8192x128.Idx, Ideal.cos (xblk m c t j * yblk m c t j)

/-- It is the total of the summand over band `t` of the reshaped index set. -/
theorem blockTotal_eq (c : Dev nD) (t : Fin cfg0.N) :
    blockTotal m c t = ∑ j : S8192x128.Idx,
      shapeCast S131072x128 (term m c) shapeCasts_S16777216_S131072x128 (ix2 ⟨8192 * t.val + (j 0).val, row_lt t j⟩ (j 1)) := by
  unfold blockTotal
  refine Finset.sum_congr rfl fun j _ => ?_
  rw [xblk_apply, yblk_apply, V_v0, V_v1]
  rfl

/-- Entry by entry, the accumulator after point `n` is the running sum of the points' contributions from `0`. -/
theorem accAt_apply (c : Dev nD) (i : S1x1.Idx) : ∀ (n : ℕ) (h : n < cfg0.N),
    accAt m c n h i = Cert.SumBlocks.running (0 : EReal) (blockTotal m c) n h
  | 0, h => by
    rw [accAt, step_apply, zeroAcc_apply]; rfl
  | n + 1, h => by
    rw [accAt, step_apply, accAt_apply c i n]; rfl

/-- The kernel's result entry: `0` plus the sum of `cos (a k · b k)` over every entry `k` of the arguments. -/
theorem result_apply (c : Dev nD) (i : S1x1.Idx) :
    result m c i = 0 + ∑ k : S16777216.Idx, term m c k := by
  have hN : cfg0.N = 16 := N_0
  rw [show result m c i = accAt m c 15 lastLt i from rfl, accAt_apply,
    Cert.SumBlocks.running_last _ _ 15 lastLt (by rw [hN])]
  refine congrArg (fun z : EReal => 0 + z) ?_
  rw [← Cert.SumBlocks.sum_shapeCast (term m c) shapeCasts_S16777216_S131072x128,
    Cert.SumBlocks.sum_row_bands cfg0.N 8192 (by rw [hN]) _]
  exact Finset.sum_congr rfl fun t _ => blockTotal_eq m c t

end Cert.KernelIdeal.Acc

end
-- ==== Proof.RefTotal.lean ====
/-
  The reference's sum over the extended reals: jnp's `sum (cos (b · a))` over all 16777216 entries is its initial
  value `0` plus the sum of `cos (a k · b k)` over every entry `k` (multiplication of extended reals commutes).
-/
import proofs.«118882_j26688926777599_1_alg».proof.Proof.Gen.ReferenceIdeal.Run
import Idealize.ShloMosaic.PureOps.Ideal.Laws
import Idealize.ShloMosaic.Lib.ValueIdx

noncomputable section

open Idealize.ShloMosaic Idealize.ShloMosaic.TcCoe Idealize.SL.Sem Idealize.ShloMosaic.ValueIdx

namespace Cert.ReferenceIdeal.Total

open Cert.ReferenceIdeal Cert.ReferenceIdeal.Gen

/-- The reduce over the one axis of the product's cosine, read at its one index. -/
theorem reduce_apply (a b : FVec Ideal S16777216 .f32) (i : S_.Idx) :
    Host.reduceAdd (F := Ideal) (Host.cos (mulf b a)) (constant (F := Ideal) S_ .f32 0x00000000#32)
        reducesTo_S16777216_S_d0 h_S_ i
      = 0 + ∑ k : S16777216.Idx, Ideal.cos (a k * b k) := by
  unfold Host.reduceAdd
  rw [Ideal.hostReduceAdd_def, Ideal.hostReduceAdd_total _ (fun b => b.elim0), constant_apply, Ideal.ofBits_zero_f32]
  refine congrArg (0 + ·) (Finset.sum_congr rfl fun k _ => ?_)
  show Ideal.cos (b k * a k) = Ideal.cos (a k * b k)
  rw [mul_comm]

end Cert.ReferenceIdeal.Total

end
-- ==== Proof.lean ====
/-
  The kernel computes `(Σₖ cos (φₖ · wₖ) + 0) / 2^24` over the 2^24 entries of its two arguments: it reshapes both to
  131072 × 128, walks 16 bands of 8192 rows, at each band adds the band's total of `cos (φ · w)` to a 1 × 1 accumulator
  (reset to zero at the first band), writes the accumulator out after the last band, and on the host adds the constant
  `+0.0` (the padding term `M − N` with `M = N = 2^24`) and divides by `2^24`.  The reference computes
  `(Σₖ cos (wₖ · φₖ) + 0) / 2^24` with one host sum over all entries.

  Over the extended reals the two agree with no condition on the inputs: addition there is a commutative monoid, so
  the sixteen band totals added left to right onto zero are the one sum over all entries (the bands partition the
  rows, a reshape only re-indexes); multiplication commutes; the kernel's and the host's cosine are one function;
  and both programs end with the same two host operations on the same constants.

  The two kernel frames are the generated ones; the reference's frame is its generated run with the result dropped;
  nothing was rewritten by the idealization, so `preserves` is trivial.
-/
import proofs.«118882_j26688926777599_1_alg».proof.Defs
import proofs.«118882_j26688926777599_1_alg».proof.Proof.Gen.Kernel
import proofs.«118882_j26688926777599_1_alg».proof.Proof.Gen.Kernel.Skeleton
import proofs.«118882_j26688926777599_1_alg».proof.Proof.Gen.Kernel.Launch
import proofs.«118882_j26688926777599_1_alg».proof.Proof.Gen.Kernel.Points
import proofs.«118882_j26688926777599_1_alg».proof.Proof.Gen.Kernel.Frame
import proofs.«118882_j26688926777599_1_alg».proof.Proof.Gen.KernelIdeal
import proofs.«118882_j26688926777599_1_alg».proof.Proof.Gen.KernelIdeal.Skeleton
import proofs.«118882_j26688926777599_1_alg».proof.Proof.Gen.KernelIdeal.Launch
import proofs.«118882_j26688926777599_1_alg».proof.Proof.Gen.KernelIdeal.Points
import proofs.«118882_j26688926777599_1_alg».proof.Proof.Gen.KernelIdeal.Frame
import proofs.«118882_j26688926777599_1_alg».proof.Proof.Gen.ReferenceIdeal
import proofs.«118882_j26688926777599_1_alg».proof.Proof.Gen.ReferenceIdeal.Run
import proofs.«118882_j26688926777599_1_alg».proof.Proof.Gen.Pre_finite_inputs
import proofs.«118882_j26688926777599_1_alg».proof.Proof.AccTotal
import proofs.«118882_j26688926777599_1_alg».proof.Proof.RefTotal
import Idealize.ShloMosaic.Adequacy
import Idealize.ShloMosaic.Init

noncomputable section

namespace Cert.Proof

open Idealize.ShloMosaic Idealize.ShloMosaic.TcCoe Idealize.SL.Sem

/-- The reference's result term, at arguments equal to the kernel's, is the kernel's result: both are the common
    host tail of a scalar, and the two scalars are `0 + Σₖ cos (φₖ · wₖ)`. -/
theorem result_eq (m : (ℓ : Loc Cert.KernelIdeal.nD Cert.KernelIdeal.τ Cert.KernelIdeal.sig) → Buf (Elt Ideal) ℓ)
    (c : Dev Cert.KernelIdeal.nD) :
    Cert.KernelIdeal.Acc.tail (F := Ideal)
        (Host.reduceAdd (F := Ideal) (Host.cos (mulf (Cert.KernelIdeal.Acc.argB m c) (Cert.KernelIdeal.Acc.argA m c)))
          (constant (F := Ideal) Cert.ReferenceIdeal.S_ .f32 0x00000000#32)
          Cert.ReferenceIdeal.Gen.reducesTo_S16777216_S_d0 Cert.ReferenceIdeal.Gen.h_S_)
      = Cert.KernelIdeal.Acc.tail (F := Ideal)
          (shapeCast Cert.KernelIdeal.S_ (Cert.KernelIdeal.Acc.result m c) Cert.KernelIdeal.Gen.shapeCasts_S1x1_S_) :=
  congrArg _ (funext fun i =>
    (Cert.ReferenceIdeal.Total.reduce_apply _ _ i).trans (Cert.KernelIdeal.Acc.result_apply m c _).symm)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs run, from memories agreeing on the arguments, to the same scalar. -/
theorem algebraic : Cert.algebraic_KernelIdeal_ReferenceIdeal := by
  intro m ρ m' ρ' _ hagree
  refine ⟨fun c => Cert.KernelIdeal.Acc.tail (F := Ideal)
      (shapeCast Cert.KernelIdeal.S_ (Cert.KernelIdeal.Acc.result m c) Cert.KernelIdeal.Gen.shapeCasts_S1x1_S_),
    Cert.KernelIdeal.Acc.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact result_eq m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
